-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S_ : Shape := ⟨0, ![]⟩

class Facts : Prop where
  bcast_S_S32x96x128x128 : S_.BroadcastsInDim S32x96x128x128 (![] : Fin 0 → Fin S32x96x128x128.rank)
  reducesTo_S32x96x128x128_S_d0_1_2_3 : S32x96x128x128.ReducesTo [0, 1, 2, 3] S_
  h_S_ : 0 < S_.numel
  bcast_S_S32x148 : S_.BroadcastsInDim S32x148 (![] : Fin 0 → Fin S32x148.rank)
  reducesTo_S32x148_S_d0_1 : S32x148.ReducesTo [0, 1] S_
  bcast_S_S9216x148 : S_.BroadcastsInDim S9216x148 (![] : Fin 0 → Fin S9216x148.rank)
  reducesTo_S9216x148_S_d0_1 : S9216x148.ReducesTo [0, 1] S_
  bcast_S_S9216 : S_.BroadcastsInDim S9216 (![] : Fin 0 → Fin S9216.rank)
  reducesTo_S9216_S_d0 : S9216.ReducesTo [0] S_
  bcast_S_S96x148 : S_.BroadcastsInDim S96x148 (![] : Fin 0 → Fin S96x148.rank)
  reducesTo_S96x148_S_d0_1 : S96x148.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x148 .f32) (main_arg5 : FVec F S96 .f32) (main_v13 : IVec S_ 1) (main_v16 : IVec S9216 1) : IVec S_ 1 :=
  let main_c_5 : IVec S_ 1 := constantI S_ 1 1#1
  let main_v17 : IVec S_ 1 := (fun x v => Host.reduce IntOp.andi x v reducesTo_S9216_S_d0 h_S_) main_v16 main_c_5
  let main_v18 : IVec S_ 1 := andi main_v13 main_v17
  let main_v19 : FVec F S96x148 .f32 := Host.absf main_arg4
  let main_cst_6 : FVec F S_ .f32 := constant S_ .f32 0x7F800000#32
  let main_v20 : FVec F S96x148 .f32 := broadcastInDim S96x148 ![] bcast_S_S96x148 main_cst_6
  let main_v21 : IVec S96x148 1 := cmpf .olt main_v19 main_v20
  let main_c_7 : IVec S_ 1 := constantI S_ 1 1#1
  let main_v22 : IVec S_ 1 := (fun x v => Host.reduce IntOp.andi x v reducesTo_S96x148_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S32x96x128x128 .f32) (main_arg1 : FVec F S32x148 .f32) (main_arg2 : FVec F S9216x148 .f32) (main_arg3 : FVec F S9216 .f32) (main_arg4 : FVec F S96x148 .f32) (main_arg5 : FVec F S96 .f32) : IVec S_ 1 :=
  let main_v0 : FVec F S32x96x128x128 .f32 := Host.absf main_arg0
  let main_cst : FVec F S_ .f32 := constant S_ .f32 0x7F800000#32
  let main_v1 : FVec F S32x96x128x128 .f32 := broadcastInDim S32x96x128x128 ![] bcast_S_S32x96x128x128 main_cst
  let main_v2 : IVec S32x96x128x128 1 := cmpf .olt main_v0 main_v1
  let main_c : IVec S_ 1 := constantI S_ 1 1#1
  let main_v3 : IVec S_ 1 := (fun x v => Host.reduce IntOp.andi x v reducesTo_S32x96x128x128_S_d0_1_2_3 h_S_) main_v2 main_c
  let main_v4 : FVec F S32x148 .f32 := Host.absf main_arg1
  let main_cst_0 : FVec F S_ .f32 := constant S_ .f32 0x7F800000#32
  let main_v5 : FVec F S32x148 .f32 := broadcastInDim S32x148 ![] bcast_S_S32x148 main_cst_0
  let main_v6 : IVec S32x148 1 := cmpf .olt main_v4 main_v5
  let main_c_1 : IVec S_ 1 := constantI S_ 1 1#1
  let main_v7 : IVec S_ 1 := (fun x v => Host.reduce IntOp.andi x v reducesTo_S32x148_S_d0_1 h_S_) main_v6 main_c_1
  let main_v8 : IVec S_ 1 := andi main_v3 main_v7
  let main_v9 : FVec F S9216x148 .f32 := Host.absf main_arg2
  let main_cst_2 : FVec F S_ .f32 := constant S_ .f32 0x7F800000#32
  let main_v10 : FVec F S9216x148 .f32 := broadcastInDim S9216x148 ![] bcast_S_S9216x148 main_cst_2
  let main_v11 : IVec S9216x148 1 := cmpf .olt main_v9 main_v10
  let main_c_3 : IVec S_ 1 := constantI S_ 1 1#1
  let main_v12 : IVec S_ 1 := (fun x v => Host.reduce IntOp.andi x v reducesTo_S9216x148_S_d0_1 h_S_) main_v11 main_c_3
  let main_v13 : IVec S_ 1 := andi main_v8 main_v12
  let main_v14 : FVec F S9216 .f32 := Host.absf main_arg3
  let main_cst_4 : FVec F S_ .f32 := constant S_ .f32 0x7F800000#32
  let main_v15 : FVec F S9216 .f32 := broadcastInDim S9216 ![] bcast_S_S9216 main_cst_4
  let main_v16 : IVec S9216 1 := cmpf .olt main_v14 main_v15
  fn_part1 (F := F) main_arg4 main_arg5 main_v13 main_v16
-- ==== Kernel.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S148x9216 : Shape := ⟨2, ![148, 9216]⟩
abbrev S32x9216 : Shape := ⟨2, ![32, 9216]⟩
abbrev S1x9216 : Shape := ⟨2, ![1, 9216]⟩
abbrev S32x96x96 : Shape := ⟨3, ![32, 96, 96]⟩
abbrev S_ : Shape := ⟨0, ![]⟩
abbrev S32x96 : Shape := ⟨2, ![32, 96]⟩
abbrev S148x96 : Shape := ⟨2, ![148, 96]⟩
abbrev S1x96 : Shape := ⟨2, ![1, 96]⟩
abbrev S32x96x1x1 : Shape := ⟨4, ![32, 96, 1, 1]⟩
abbrev S1x48x128x128 : Shape := ⟨4, ![1, 48, 128, 128]⟩
abbrev S1x48x1x1 : Shape := ⟨4, ![1, 48, 1, 1]⟩

abbrev nBuf : Space → Nat
  | .hbm => 22
  | .vmem => 8
  | .smem => 0
  | _ => 0

abbrev bufTy : (tb : Table) → Fin (tcTables nBuf tb) → BufTy
  | .hbm, ⟨0, _⟩ => ⟨S32x96x128x128, .f32⟩
  | .hbm, ⟨1, _⟩ => ⟨S32x148, .f32⟩
  | .hbm, ⟨2, _⟩ => ⟨S9216x148, .f32⟩
  | .hbm, ⟨3, _⟩ => ⟨S9216, .f32⟩
  | .hbm, ⟨4, _⟩ => ⟨S96x148, .f32⟩
  | .hbm, ⟨5, _⟩ => ⟨S96, .f32⟩
  | .hbm, ⟨6, _⟩ => ⟨S148x9216, .f32⟩
  | .hbm, ⟨7, _⟩ => ⟨S32x9216, .f32⟩
  | .hbm, ⟨8, _⟩ => ⟨S1x9216, .f32⟩
  | .hbm, ⟨9, _⟩ => ⟨S32x9216, .f32⟩
  | .hbm, ⟨10, _⟩ => ⟨S32x9216, .f32⟩
  | .hbm, ⟨11, _⟩ => ⟨S32x96x96, .f32⟩
  | .hbm, ⟨12, _⟩ => ⟨S_, .f32⟩
  | .hbm, ⟨13, _⟩ => ⟨S32x96, .f32⟩
  | .hbm, ⟨14, _⟩ => ⟨S148x96, .f32⟩
  | .hbm, ⟨15, _⟩ => ⟨S32x96, .f32⟩
  | .hbm, ⟨16, _⟩ => ⟨S1x96, .f32⟩
  | .hbm, ⟨17, _⟩ => ⟨S32x96, .f32⟩
  | .hbm, ⟨18, _⟩ => ⟨S32x96, .f32⟩
  | .hbm, ⟨19, _⟩ => ⟨S32x96x1x1, .f32⟩
  | .hbm, ⟨20, _⟩ => ⟨S32x96x1x1, .f32⟩
  | .hbm, ⟨21, _⟩ => ⟨S32x96x128x128, .f32⟩
  | .local _ .vmem, ⟨0, _⟩ => ⟨S1x48x128x128, .f32⟩
  | .local _ .vmem, ⟨1, _⟩ => ⟨S1x48x128x128, .f32⟩
  | .local _ .vmem, ⟨2, _⟩ => ⟨S1x48x1x1, .f32⟩
  | .local _ .vmem, ⟨3, _⟩ => ⟨S1x48x1x1, .f32⟩
  | .local _ .vmem, ⟨4, _⟩ => ⟨S1x48x1x1, .f32⟩
  | .local _ .vmem, ⟨5, _⟩ => ⟨S1x48x1x1, .f32⟩
  | .local _ .vmem, ⟨6, _⟩ => ⟨S1x48x128x128, .f32⟩
  | .local _ .vmem, ⟨7, _⟩ => ⟨S1x48x128x128, .f32⟩
  | _, _ => ⟨S32x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S9216x148_S148x9216_1_0 : S9216x148.Transposes [1, 0] S148x9216
  bcast_S9216_S1x9216_1 : S9216.BroadcastsInDim S1x9216 (![1] : Fin 1 → Fin S1x9216.rank)
  bcast_S1x9216_S32x9216_0_1 : S1x9216.BroadcastsInDim S32x9216 (![0, 1] : Fin 2 → Fin S32x9216.rank)
  shapeCasts_S32x9216_S32x96x96 : S32x9216.ShapeCasts S32x96x96
  reducesTo_S32x96x96_S32x96_d2 : S32x96x96.ReducesTo [2] S32x96
  h_S_ : 0 < S_.numel
  transposes_S96x148_S148x96_1_0 : S96x148.Transposes [1, 0] S148x96
  bcast_S96_S1x96_1 : S96.BroadcastsInDim S1x96 (![1] : Fin 1 → Fin S1x96.rank)
  bcast_S1x96_S32x96_0_1 : S1x96.BroadcastsInDim S32x96 (![0, 1] : Fin 2 → Fin S32x96.rank)
  shapeCasts_S32x96_S32x96x1x1 : S32x96.ShapeCasts S32x96x1x1
  inb_S1x48x128x128_S1x48x128x128_0_0_0_0 : ∀ a, (![0, 0, 0, 0] : Fin 4 → Nat) a + S1x48x128x128.size a ≤ S1x48x128x128.size a
  h_S1x48x128x128 : 0 < S1x48x128x128.numel
  inb_S1x48x1x1_S1x48x1x1_0_0_0_0 : ∀ a, (![0, 0, 0, 0] : Fin 4 → Nat) a + S1x48x1x1.size a ≤ S1x48x1x1.size a
  h_S1x48x1x1 : 0 < S1x48x1x1.numel
  shapeCasts_S1x48x1x1_S1x48x1x1 : S1x48x1x1.ShapeCasts S1x48x1x1
  broadcasts_S1x48x1x1_S1x48x128x128 : S1x48x1x1.Broadcasts S1x48x128x128
  dot_S32x148_S148x9216_S32x9216_1_0_0_1_n_n_wf : DotDims.WF S32x148 S148x9216 S32x9216 [1] [0] [0] [1] [] []
  dot_S32x148_S148x96_S32x96_1_0_0_1_n_n_wf : DotDims.WF S32x148 S148x96 S32x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x128x128.size a ≤ S32x96x128x128.size a
  hwx0_0 : ∀ i : grid0.Coords, EltTy.bits .f32 = 32 ∨ (Rect.block (s := S32x96x128x128) S1x48x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x1x1.size a ≤ S32x96x1x1.size a
  hwx0_1 : ∀ i : grid0.Coords, EltTy.bits .f32 = 32 ∨ (Rect.block (s := S32x96x1x1) S1x48x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48x1x1.size a ≤ S32x96x1x1.size a
  hwx0_2 : ∀ i : grid0.Coords, EltTy.bits .f32 = 32 ∨ (Rect.block (s := S32x96x1x1) S1x48x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x48x128x128.size a ≤ S32x96x128x128.size a
  hwx0_3 : ∀ i : grid0.Coords, EltTy.bits .f32 = 32 ∨ (Rect.block (s := S32x96x128x128) S1x48x128x128.size (cc0_transform_3 i) (hinb0_3 i)).WholeWords (EltTy.packing .f32)

variable [Facts₀]

def dot_S32x148_S148x9216_S32x9216_1_0_0_1_n_n : DotDims S32x148 S148x9216 S32x9216 where
  lhsContracting := [1]
  rhsContracting := [0]
  lhsNonContracting := [0]
  rhsNonContracting := [1]
  lhsBatch := []
  rhsBatch := []
  wf := dot_S32x148_S148x9216_S32x9216_1_0_0_1_n_n_wf
def dot_S32x148_S148x96_S32x96_1_0_0_1_n_n : DotDims S32x148 S148x96 S32x96 where
  lhsContracting := [1]
  rhsContracting := [0]
  lhsNonContracting := [0]
  rhsNonContracting := [1]
  lhsBatch := []
  rhsBatch := []
  wf := dot_S32x148_S148x96_S32x96_1_0_0_1_n_n_wf

abbrev win0_0 : Pipeline.Window sig grid0 :=
  Pipeline.Window.ofSpec (Memref.whole main_arg0) S1x48x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x48x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x48x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x48x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x96x128x128 : Shape := ⟨4, ![32, 96, 128, 128]⟩
abbrev S32x148 : Shape := ⟨2, ![32, 148]⟩
abbrev S9216x148 : Shape := ⟨2, ![9216, 148]⟩
abbrev S9216 : Shape := ⟨1, ![9216]⟩
abbrev S96x148 : Shape := ⟨2, ![96, 148]⟩
abbrev S96 : Shape := ⟨1, ![96]⟩
abbrev S148x9216 : Shape := ⟨2, ![148, 9216]⟩
abbrev S32x9216 : Shape := ⟨2, ![32, 9216]⟩
abbrev S1x9216 : Shape := ⟨2, ![1, 9216]⟩
abbrev S32x96x96 : Shape := ⟨3, ![32, 96, 96]⟩
abbrev S148x96 : Shape := ⟨2, ![148, 96]⟩
abbrev S32x96 : Shape := ⟨2, ![32, 96]⟩
abbrev S1x96 : Shape := ⟨2, ![1, 96]⟩
abbrev S_ : Shape := ⟨0, ![]⟩
abbrev S32x96x1x1 : Shape := ⟨4, ![32, 96, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x96x128x128, .f32⟩
  | .hbm, ⟨1, _⟩ => ⟨S32x148, .f32⟩
  | .hbm, ⟨2, _⟩ => ⟨S9216x148, .f32⟩
  | .hbm, ⟨3, _⟩ => ⟨S9216, .f32⟩
  | .hbm, ⟨4, _⟩ => ⟨S96x148, .f32⟩
  | .hbm, ⟨5, _⟩ => ⟨S96, .f32⟩
  | .hbm, ⟨6, _⟩ => ⟨S148x9216, .f32⟩
  | .hbm, ⟨7, _⟩ => ⟨S32x9216, .f32⟩
  | .hbm, ⟨8, _⟩ => ⟨S1x9216, .f32⟩
  | .hbm, ⟨9, _⟩ => ⟨S32x9216, .f32⟩
  | .hbm, ⟨10, _⟩ => ⟨S32x9216, .f32⟩
  | .hbm, ⟨11, _⟩ => ⟨S32x96x96, .f32⟩
  | .hbm, ⟨12, _⟩ => ⟨S148x96, .f32⟩
  | .hbm, ⟨13, _⟩ => ⟨S32x96, .f32⟩
  | .hbm, ⟨14, _⟩ => ⟨S1x96, .f32⟩
  | .hbm, ⟨15, _⟩ => ⟨S32x96, .f32⟩
  | .hbm, ⟨16, _⟩ => ⟨S32x96, .f32⟩
  | .hbm, ⟨17, _⟩ => ⟨S_, .f32⟩
  | .hbm, ⟨18, _⟩ => ⟨S32x96, .f32⟩
  | .hbm, ⟨19, _⟩ => ⟨S32x96x1x1, .f32⟩
  | .hbm, ⟨20, _⟩ => ⟨S32x96x128x128, .f32⟩
  | .hbm, ⟨21, _⟩ => ⟨S32x96x128x128, .f32⟩
  | .hbm, ⟨22, _⟩ => ⟨S32x96x1x1, .f32⟩
  | .hbm, ⟨23, _⟩ => ⟨S32x96x128x128, .f32⟩
  | .hbm, ⟨24, _⟩ => ⟨S32x96x128x128, .f32⟩
  | .hbm, ⟨25, _⟩ => ⟨S_, .f32⟩
  | .hbm, ⟨26, _⟩ => ⟨S32x96x128x128, .f32⟩
  | .hbm, ⟨27, _⟩ => ⟨S32x96x128x128, .f32⟩
  | _, _ => ⟨S32x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S9216x148_S148x9216_1_0 : S9216x148.Transposes [1, 0] S148x9216
  bcast_S9216_S1x9216_1 : S9216.BroadcastsInDim S1x9216 (![1] : Fin 1 → Fin S1x9216.rank)
  bcast_S1x9216_S32x9216_0_1 : S1x9216.BroadcastsInDim S32x9216 (![0, 1] : Fin 2 → Fin S32x9216.rank)
  shapeCasts_S32x9216_S32x96x96 : S32x9216.ShapeCasts S32x96x96
  transposes_S96x148_S148x96_1_0 : S96x148.Transposes [1, 0] S148x96
  bcast_S96_S1x96_1 : S96.BroadcastsInDim S1x96 (![1] : Fin 1 → Fin S1x96.rank)
  bcast_S1x96_S32x96_0_1 : S1x96.BroadcastsInDim S32x96 (![0, 1] : Fin 2 → Fin S32x96.rank)
  reducesTo_S32x96x96_S32x96_d2 : S32x96x96.ReducesTo [2] S32x96
  h_S_ : 0 < S_.numel
  bcast_S32x96_S32x96x1x1_0_1 : S32x96.BroadcastsInDim S32x96x1x1 (![0, 1] : Fin 2 → Fin S32x96x1x1.rank)
  bcast_S32x96x1x1_S32x96x128x128_0_1_2_3 : S32x96x1x1.BroadcastsInDim S32x96x128x128 (![0, 1, 2, 3] : Fin 4 → Fin S32x96x128x128.rank)
  bcast_S_S32x96x128x128 : S_.BroadcastsInDim S32x96x128x128 (![] : Fin 0 → Fin S32x96x128x128.rank)
  dot_S32x148_S148x9216_S32x9216_1_0_0_1_n_n_wf : DotDims.WF S32x148 S148x9216 S32x9216 [1] [0] [0] [1] [] []
  dot_S32x148_S148x96_S32x96_1_0_0_1_n_n_wf : DotDims.WF S32x148 S148x96 S32x96 [1] [0] [0] [1] [] []

variable [Facts₀]

def dot_S32x148_S148x9216_S32x9216_1_0_0_1_n_n : DotDims S32x148 S148x9216 S32x9216 where
  lhsContracting := [1]
  rhsContracting := [0]
  lhsNonContracting := [0]
  rhsNonContracting := [1]
  lhsBatch := []
  rhsBatch := []
  wf := dot_S32x148_S148x9216_S32x9216_1_0_0_1_n_n_wf
def dot_S32x148_S148x96_S32x96_1_0_0_1_n_n : DotDims S32x148 S148x96 S32x96 where
  lhsContracting := [1]
  rhsContracting := [0]
  lhsNonContracting := [0]
  rhsNonContracting := [1]
  lhsBatch := []
  rhsBatch := []
  wf := dot_S32x148_S148x96_S32x96_1_0_0_1_n_n_wf

class Facts : Prop extends Facts₀ where

variable [Facts]
-- ==== Proof.Spec.lean ====
/-
  The function both programs compute. A feature map `h` of shape [32, 96, 128, 128] is scaled and shifted per
  (sample, channel) pair by two tables `s`, `v` of shape [32, 96], then clamped below at zero:

      out[b, c, y, x] = max (h[b, c, y, x] · s[b, c] + v[b, c]) 0.

  It is stated for any float instance: the proof of equivalence never opens the arithmetic, only the layouts (which
  element of the tables an element of the map meets).
-/
import Idealize.ShloMosaic.PureOps

noncomputable section

namespace Cert.AffineRelu

open Idealize.ShloMosaic

variable {F : FTy → Type} [FloatOps F]

/-- The feature map's shape. -/
abbrev Smap : Shape := ⟨4, ![32, 96, 128, 128]⟩
/-- The shape of the per-(sample, channel) tables. -/
abbrev Stab : Shape := ⟨2, ![32, 96]⟩

/-- The (sample, channel) pair of a feature-map index: its two leading coordinates. -/
abbrev chan (i : Smap.Idx) : Stab.Idx := fun a => match a with
  | ⟨0, _⟩ => ⟨(i 0).val, (i 0).isLt⟩
  | ⟨1, _⟩ => ⟨(i 1).val, (i 1).isLt⟩

/-- `max (h · s + v) 0`, the tables read at the index's (sample, channel) pair. -/
def G (h : Smap.Idx → Elt F .f32) (s v : Stab.Idx → Elt F .f32) : Smap.Idx → Elt F .f32 :=
  fun i => FloatOps.maximumf (FloatOps.addf (FloatOps.mulf (h i) (s (chan i))) (v (chan i))) (FloatOps.ofBits .f32 0x00000000#32)

theorem G_apply (h : Smap.Idx → Elt F .f32) (s v : Stab.Idx → Elt F .f32) (i : Smap.Idx) :
    G h s v i = FloatOps.maximumf (FloatOps.addf (FloatOps.mulf (h i) (s (chan i))) (v (chan i))) (FloatOps.ofBits .f32 0x00000000#32) := rfl

end Cert.AffineRelu

end
-- ==== Proof.KernelValue.lean ====
/-
  The kernel's result array is `G`. The host prelude computes the scale table (a matrix product plus a bias row,
  regrouped [32, 9216] → [32, 96, 96] and summed over its last axis) and the shift table (a matrix product plus a bias
  row), and regroups each [32, 96] → [32, 96, 1, 1]. The grid has 32 × 2 points; point (b, s) takes the block
  [1, 48, 128, 128] of the feature map at block index (b, s, 0, 0) and the blocks [1, 48, 1, 1] of the two regrouped
  tables at the same block index, and writes back `max (h · s + v) 0` with the table entries spread over the
  128 × 128 positions. An element (b, c, y, x) of the result therefore lies in the block of point (b, c / 48), where it
  meets the tables' entry (b, c): the regrouping [32, 96] → [32, 96, 1, 1] keeps the row-major position 96 b + c.
-/
import proofs.«159850_j19842748907868_1_alg».proof.Proof.Gen.KernelIdeal.Value
import proofs.«159850_j19842748907868_1_alg».proof.Proof.Spec
import Idealize.ShloMosaic.Lib.Pipeline.Value
import Idealize.ShloMosaic.Lib.StableHlo.Run

noncomputable section

namespace Cert.KernelIdeal.KerValue

open Cert.KernelIdeal Cert.KernelIdeal.Gen Cert.KernelIdeal.Value Idealize.ShloMosaic Idealize.ShloMosaic.TcCoe
open Idealize.SL.Sem Idealize.ShloMosaic.StableHlo Cert.AffineRelu
open Idealize.ShloMosaic.Pipeline (Dat)

variable {F : FTy → Type} [FloatOps F]

/-! ## The two tables, as the host prelude computes them -/

/-- The scale table: `(y · Wgᵀ + bg)` regrouped to [32, 96, 96] and summed over the last axis. -/
def scaleTab (x1 : (⟨S32x148, .f32⟩ : BufTy).Contents (Elt F)) (x2 : (⟨S9216x148, .f32⟩ : BufTy).Contents (Elt F))
    (x3 : (⟨S9216, .f32⟩ : BufTy).Contents (Elt F)) : (⟨S32x96, .f32⟩ : BufTy).Contents (Elt F) :=
  Host.reduceAdd (shapeCast S32x96x96 (addf (Host.dotGeneral dot_S32x148_S148x9216_S32x9216_1_0_0_1_n_n none x1 (transpose S148x9216 [1, 0] x2 transposes_S9216x148_S148x9216_1_0)) (broadcastInDim S32x9216 ![0, 1] bcast_S1x9216_S32x9216_0_1 (broadcastInDim S1x9216 ![1] bcast_S9216_S1x9216_1 x3))) shapeCasts_S32x9216_S32x96x96) (constant S_ .f32 0x00000000#32) reducesTo_S32x96x96_S32x96_d2 h_S_

/-- The shift table: `y · Bgᵀ + bb`. -/
def shiftTab (x1 : (⟨S32x148, .f32⟩ : BufTy).Contents (Elt F)) (x4 : (⟨S96x148, .f32⟩ : BufTy).Contents (Elt F))
    (x5 : (⟨S96, .f32⟩ : BufTy).Contents (Elt F)) : (⟨S32x96, .f32⟩ : BufTy).Contents (Elt F) :=
  addf (Host.dotGeneral dot_S32x148_S148x96_S32x96_1_0_0_1_n_n none x1 (transpose S148x96 [1, 0] x4 transposes_S96x148_S148x96_1_0)) (broadcastInDim S32x96 ![0, 1] bcast_S1x96_S32x96_0_1 (broadcastInDim S1x96 ![1] bcast_S96_S1x96_1 x5))

variable (m : (ℓ : Loc nD τ sig) → Buf (Elt F) ℓ) (ρ : Dev nD → PrngReg)

/-- The tables of core `c`'s arguments. -/
abbrev scaleOf (c : Dev nD) : (⟨S32x96, .f32⟩ : BufTy).Contents (Elt F) :=
  scaleTab (m ((c : Thread nD τ).loc main_arg1)) (m ((c : Thread nD τ).loc main_arg2)) (m ((c : Thread nD τ).loc main_arg3))
abbrev shiftOf (c : Dev nD) : (⟨S32x96, .f32⟩ : BufTy).Contents (Elt F) :=
  shiftTab (m ((c : Thread nD τ).loc main_arg1)) (m ((c : Thread nD τ).loc main_arg4)) (m ((c : Thread nD τ).loc main_arg5))

/-- Window 1's array when the region is entered: the scale table regrouped to [32, 96, 1, 1]. -/
theorem entry_scale (c : Dev nD) :
    (V m c main_v12 : S32x96x1x1.Idx → Elt F .f32) = shapeCast S32x96x1x1 (scaleOf m c) shapeCasts_S32x96_S32x96x1x1 := by
  dsimp only [V, hostOps0]; after_results; rfl

/-- Window 2's array when the region is entered: the shift table regrouped to [32, 96, 1, 1]. -/
theorem entry_shift (c : Dev nD) :
    (V m c main_v13 : S32x96x1x1.Idx → Elt F .f32) = shapeCast S32x96x1x1 (shiftOf m c) shapeCasts_S32x96_S32x96x1x1 := by
  dsimp only [V, hostOps0]; after_results; rfl

/-- Window 0's array when the region is entered: the feature map as launched. -/
theorem entry_map (c : Dev nD) :
    (V m c main_arg0 : S32x96x128x128.Idx → Elt F .f32) = m ((c : Thread nD τ).loc main_arg0) := V_main_arg0 m c

/-! ## One block -/

theorem zero_offsets : (![0, 0, 0, 0] : Fin 4 → Nat) = fun _ => 0 := funext fun a => by fin_cases a <;> rfl

/-- What the body leaves in the output block is the generated index-by-index function of its three loaded blocks. -/
theorem block_eq (x0 : Vec F S1x48x128x128 .f32) (x1 x2 : Vec F S1x48x1x1 .f32) : out0_3 x0 x1 x2 = E3 x0 x1 x2 := by
  unfold out0_3
  funext y
  rw [canon3_eq]
  simp only [View.ld_unit_zero (S := S1x48x128x128) zero_offsets, View.ld_unit_zero (S := S1x48x1x1) zero_offsets]

/-- A table regrouped [32, 96] → [32, 96, 1, 1], read at `j`, is the table at `j`'s two leading coordinates. -/
theorem regrouped_apply (tab : S32x96.Idx → Elt F .f32) (j : S32x96x1x1.Idx) (k : S32x96.Idx)
    (h0 : (k 0).val = (j 0).val) (h1 : (k 1).val = (j 1).val) :
    shapeCast S32x96x1x1 tab shapeCasts_S32x96_S32x96x1x1 j = tab k := by
  refine shapeCast_apply tab shapeCasts_S32x96_S32x96x1x1 j k ?_
  have j2 : (j 2).val < 1 := (j 2).isLt
  have j3 : (j 3).val < 1 := (j 3).isLt
  rw [Shape.rowMajor_val_two, Shape.rowMajor_val_four]
  show (k 0).val * 96 + (k 1).val = (((j 0).val * 96 + (j 1).val) * 1 + (j 2).val) * 1 + (j 3).val
  omega

/-- The printed index maps, decided over the 64 grid points: all four windows sit at block index (b, s, 0, 0). -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0 :=
  (by decide +kernel : ∀ t : Fin grid0.N, _)

/-- WHAT POINT `t` WRITES BACK is block `t` of `G` of the feature map and the two tables. -/
theorem flushed_eq (c : Dev nD) (t : Fin cfg0.N) :
    (dats m 0 c).flushed 3 t
      = ((cfg0.win 3).blk t).view.read (Elt F) (G (m ((c : Thread nD τ).loc main_arg0)) (scaleOf m c) (shiftOf m c)) := by
  rw [Value.flushed3]
  show (cfg0.win 3).cut (grid0.coords t) (out0_3 (iblk m c 0 t) (iblk m c 1 t) (iblk m c 2 t)) = _
  rw [block_eq]
  funext y
  show FloatOps.maximumf (FloatOps.addf (FloatOps.mulf (V m c main_arg0 (((cfg0.win 0).blk t).view.emb (ix3_0 y))) (V m c main_v12 (((cfg0.win 1).blk t).view.emb (ix3_1 y)))) (V m c main_v13 (((cfg0.win 2).blk t).view.emb (ix3_2 y)))) (FloatOps.ofBits .f32 0x00000000#32)
    = G (m ((c : Thread nD τ).loc main_arg0)) (scaleOf m c) (shiftOf m c) (((cfg0.win 3).blk t).view.emb y)
  rw [entry_map, entry_scale, entry_shift, G_apply]
  obtain ⟨a0, a1, a2, a3, b0, b1, b2, b3, c0, c1, c2, c3, d2, d3⟩ := idx_facts t
  have hy0 : (y 0).val < 1 := (y 0).isLt
  have hy1 : (y 1).val < 48 := (y 1).isLt
  have hy2 : (y 2).val < 128 := (y 2).isLt
  have hy3 : (y 3).val < 128 := (y 3).isLt
  have hmap : ((cfg0.win 0).blk t).view.emb (ix3_0 y) = ((cfg0.win 3).blk t).view.emb y := by
    funext a; apply Fin.ext
    match a with
    | ⟨0, _⟩ => show win0_0.index t (0 : Fin 4) * 1 + 1 * 0 = win0_3.index t (0 : Fin 4) * 1 + 1 * (y 0).val; omega
    | ⟨1, _⟩ => show win0_0.index t (1 : Fin 4) * 48 + 1 * (y 1).val = win0_3.index t (1 : Fin 4) * 48 + 1 * (y 1).val; omega
    | ⟨2, _⟩ => show win0_0.index t (2 : Fin 4) * 128 + 1 * (y 2).val = win0_3.index t (2 : Fin 4) * 128 + 1 * (y 2).val; omega
    | ⟨3, _⟩ => show win0_0.index t (3 : Fin 4) * 128 + 1 * (y 3).val = win0_3.index t (3 : Fin 4) * 128 + 1 * (y 3).val; omega
  have hscale : shapeCast S32x96x1x1 (scaleOf m c) shapeCasts_S32x96_S32x96x1x1 (((cfg0.win 1).blk t).view.emb (ix3_1 y))
      = scaleOf m c (chan (((cfg0.win 3).blk t).view.emb y)) :=
    regrouped_apply _ _ _
      (by show win0_3.index t (0 : Fin 4) * 1 + 1 * (y 0).val = win0_1.index t (0 : Fin 4) * 1 + 1 * 0; omega)
      (by show win0_3.index t (1 : Fin 4) * 48 + 1 * (y 1).val = win0_1.index t (1 : Fin 4) * 48 + 1 * (y 1).val; omega)
  have hshift : shapeCast S32x96x1x1 (shiftOf m c) shapeCasts_S32x96_S32x96x1x1 (((cfg0.win 2).blk t).view.emb (ix3_2 y))
      = shiftOf m c (chan (((cfg0.win 3).blk t).view.emb y)) :=
    regrouped_apply _ _ _
      (by show win0_3.index t (0 : Fin 4) * 1 + 1 * (y 0).val = win0_2.index t (0 : Fin 4) * 1 + 1 * 0; omega)
      (by show win0_3.index t (1 : Fin 4) * 48 + 1 * (y 1).val = win0_2.index t (1 : Fin 4) * 48 + 1 * (y 1).val; omega)
  rw [hmap, hscale, hshift]

/-! ## The blocks cover the array -/

/-- Every block index (b, s, 0, 0) is some point's. -/
theorem idx_onto : ∀ (q0 : Fin 32) (q1 : Fin 2), ∃ t : Fin cfg0.N, win0_3.index t = ![q0.val, q1.val, 0, 0] :=
  (by decide +kernel : ∀ (q0 : Fin 32) (q1 : Fin 2), ∃ t : Fin grid0.N, win0_3.index t = ![q0.val, q1.val, 0, 0])

/-- An index of the array is in point `t`'s block iff each coordinate is in the block's range on its axis. -/
theorem mem_blk (t : Fin cfg0.N) (i : S32x96x128x128.Idx) :
    i ∈ ((cfg0.win 3).blk t).view.set ↔ ∀ a : Fin 4, win0_3.index t a * S1x48x128x128.size a ≤ (i a).val ∧ (i a).val < win0_3.index t a * S1x48x128x128.size a + S1x48x128x128.size a := by
  show i ∈ ((View.whole main_v14).slice (win0_3.rect t)).set ↔ _
  rw [View.set_slice_whole, Rect.mem_set_unit]
  exact Iff.rfl

/-- Element (b, c, y, x) lies in the block of the point with block index (b, c / 48, 0, 0). -/
theorem cover (i : S32x96x128x128.Idx) :
    ∃ t : Fin cfg0.N, (cfg0.win 3).flush t = true ∧ i ∈ ((cfg0.win 3).blk t).view.set := by
  have hi0 : (i 0).val < 32 := (i 0).isLt
  have hi1 : (i 1).val < 96 := (i 1).isLt
  have hi2 : (i 2).val < 128 := (i 2).isLt
  have hi3 : (i 3).val < 128 := (i 3).isLt
  obtain ⟨t, ht⟩ := idx_onto ⟨(i 0).val, hi0⟩ ⟨(i 1).val / 48, by omega⟩
  have q0 : win0_3.index t (0 : Fin 4) = (i 0).val := congrFun ht 0
  have q1 : win0_3.index t (1 : Fin 4) = (i 1).val / 48 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 48 ≤ (i 1).val ∧ (i 1).val < win0_3.index t (1 : Fin 4) * 48 + 48; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-! ## The array after the run, and the run -/

/-- THE RESULT ARRAY after the run is `G` of the feature map and the two tables. -/
theorem final (c : Dev nD) :
    (dats m 0 c).arrAt 3 cfg0.N = G (m ((c : Thread nD τ).loc main_arg0)) (scaleOf m c) (shiftOf m c) :=
  (dats m 0 c).arrAt_eq_of_cover 3 (G (m ((c : Thread nD τ).loc main_arg0)) (scaleOf m c) (shiftOf m c))
    (fun t _ => flushed_eq m c t) cover

/-- The run, read: the result array at `G`, the arguments unchanged. -/
theorem run : θ_run defs (onTc (τ := τ) (main (F := F))) ⟨m, fun _ => 0, ρ⟩ fun r => ∀ c : Dev nD,
      r.2.mem ((c : Thread nD τ).loc main_v14) = G (m ((c : Thread nD τ).loc main_arg0)) (scaleOf m c) (shiftOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KerValue

end
-- ==== Proof.ReferenceValue.lean ====
/-
  The reference's result is `G`. Its last stages broadcast the scale table [32, 96] to [32, 96, 1, 1] and on to
  [32, 96, 128, 128] (likewise the shift table), multiply, add and clamp at zero; read at an index `i` each broadcast
  keeps the two leading coordinates of `i`, so the tables are met at `chan i`. The tables themselves (two matrix
  products with their bias rows, one of them summed over its last axis) are left as they are: the kernel computes
  them with the same operations.
-/
import proofs.«159850_j19842748907868_1_alg».proof.Proof.Gen.ReferenceIdeal.Read
import proofs.«159850_j19842748907868_1_alg».proof.Proof.Spec

noncomputable section

namespace Cert.ReferenceIdeal.RefValue

open Cert.ReferenceIdeal Cert.ReferenceIdeal.Read Idealize.ShloMosaic Cert.AffineRelu

variable {F : FTy → Type} [FloatOps F]

/-- Through the two broadcasts of the scale table, a map index reads the table at its (sample, channel) pair. -/
theorem scale_idx (i : S32x96x128x128.Idx) : idx_main_v12 (idx_main_v13 i) = chan i :=
  funext fun a => Fin.ext (by match a with | ⟨0, _⟩ => rfl | ⟨1, _⟩ => rfl)

/-- The same for the shift table. -/
theorem shift_idx (i : S32x96x128x128.Idx) : idx_main_v15 (idx_main_v16 i) = chan i :=
  funext fun a => Fin.ext (by match a with | ⟨0, _⟩ => rfl | ⟨1, _⟩ => rfl)

/-- The reference's last stage is `G` of the feature map, the scale table (stage 11) and the shift table (stage 10). -/
theorem result_eq (x0 : (⟨S32x96x128x128, .f32⟩ : BufTy).Contents (Elt F)) (x1 : (⟨S32x148, .f32⟩ : BufTy).Contents (Elt F))
    (x2 : (⟨S9216x148, .f32⟩ : BufTy).Contents (Elt F)) (x3 : (⟨S9216, .f32⟩ : BufTy).Contents (Elt F))
    (x4 : (⟨S96x148, .f32⟩ : BufTy).Contents (Elt F)) (x5 : (⟨S96, .f32⟩ : BufTy).Contents (Elt F)) :
    val_main_v18 (F := F) x0 x1 x2 x3 x4 x5
      = G x0 (val_main_v11 (F := F) x1 x2 x3) (val_main_v10 (F := F) x1 x4 x5) := by
  funext i
  rw [val_main_v18_apply, val_main_v17_apply, val_main_v14_apply, val_main_v13_apply, val_main_v12_apply,
    val_main_v16_apply, val_main_v15_apply, val_main_call0_v0_apply, val_main_call0_cst_apply, scale_idx, shift_idx,
    G_apply]

end Cert.ReferenceIdeal.RefValue

end
-- ==== Proof.lean ====
/-
  Equivalence of a tiled multiply-add-clamp kernel with its array-level reference, over the extended reals.

  Both programs first compute, with the same host operations on the same arguments, a scale table
  `s = Σ_last reshape (y · Wgᵀ + bg)` and a shift table `v = y · Bgᵀ + bb`, each of shape [32, 96]. The reference then
  spreads each table over the [32, 96, 128, 128] feature map `h` by two broadcasts and returns `max (h · s + v) 0`. The
  kernel instead regroups each table to [32, 96, 1, 1], walks a 32 × 2 grid of blocks [1, 48, 128, 128] of `h` with the
  matching [1, 48, 1, 1] blocks of the tables, and writes `max (h · s + v) 0` block by block. Both results are the one
  function `G h s v` (Proof/Spec.lean): element (b, c, y, x) meets the tables' entry (b, c) on either road. No law of
  arithmetic is used, so the proof holds at any float instance and the finiteness precondition is never opened; the two
  tables are equal as terms.
-/
import proofs.«159850_j19842748907868_1_alg».proof.Defs
import proofs.«159850_j19842748907868_1_alg».proof.Proof.Gen.Kernel
import proofs.«159850_j19842748907868_1_alg».proof.Proof.Gen.Kernel.Skeleton
import proofs.«159850_j19842748907868_1_alg».proof.Proof.Gen.Kernel.Launch
import proofs.«159850_j19842748907868_1_alg».proof.Proof.Gen.Kernel.Points
import proofs.«159850_j19842748907868_1_alg».proof.Proof.Gen.Kernel.Frame
import proofs.«159850_j19842748907868_1_alg».proof.Proof.Gen.KernelIdeal
import proofs.«159850_j19842748907868_1_alg».proof.Proof.Gen.KernelIdeal.Skeleton
import proofs.«159850_j19842748907868_1_alg».proof.Proof.Gen.KernelIdeal.Launch
import proofs.«159850_j19842748907868_1_alg».proof.Proof.Gen.KernelIdeal.Points
import proofs.«159850_j19842748907868_1_alg».proof.Proof.Gen.KernelIdeal.Frame
import proofs.«159850_j19842748907868_1_alg».proof.Proof.Gen.ReferenceIdeal
import proofs.«159850_j19842748907868_1_alg».proof.Proof.Gen.Pre_finite_inputs
import proofs.«159850_j19842748907868_1_alg».proof.Proof.Gen.KernelIdeal.Value
import proofs.«159850_j19842748907868_1_alg».proof.Proof.Gen.ReferenceIdeal.Run
import proofs.«159850_j19842748907868_1_alg».proof.Proof.Gen.ReferenceIdeal.Read
import proofs.«159850_j19842748907868_1_alg».proof.Proof.Spec
import proofs.«159850_j19842748907868_1_alg».proof.Proof.KernelValue
import proofs.«159850_j19842748907868_1_alg».proof.Proof.ReferenceValue
import Idealize.ShloMosaic.Adequacy
import Idealize.ShloMosaic.Init

noncomputable section

namespace Cert.Proof

open Idealize.ShloMosaic Idealize.ShloMosaic.TcCoe Idealize.SL.Sem

/-! ## The two tables are the same terms in both programs -/

/-- The reference's scale table (its stage 11) is the kernel prelude's: the same matrix product, bias row, regrouping
    and sum over the last axis. -/
theorem scale_agree (x1 : (⟨Cert.KernelIdeal.S32x148, .f32⟩ : BufTy).Contents (Elt Ideal))
    (x2 : (⟨Cert.KernelIdeal.S9216x148, .f32⟩ : BufTy).Contents (Elt Ideal))
    (x3 : (⟨Cert.KernelIdeal.S9216, .f32⟩ : BufTy).Contents (Elt Ideal)) :
    Cert.ReferenceIdeal.Read.val_main_v11 (F := Ideal) x1 x2 x3 = Cert.KernelIdeal.KerValue.scaleTab (F := Ideal) x1 x2 x3 := rfl

/-- The reference's shift table (its stage 10) is the kernel prelude's: the same matrix product and bias row. -/
theorem shift_agree (x1 : (⟨Cert.KernelIdeal.S32x148, .f32⟩ : BufTy).Contents (Elt Ideal))
    (x4 : (⟨Cert.KernelIdeal.S96x148, .f32⟩ : BufTy).Contents (Elt Ideal))
    (x5 : (⟨Cert.KernelIdeal.S96, .f32⟩ : BufTy).Contents (Elt Ideal)) :
    Cert.ReferenceIdeal.Read.val_main_v10 (F := Ideal) x1 x4 x5 = Cert.KernelIdeal.KerValue.shiftTab (F := Ideal) x1 x4 x5 := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories agreeing on the arguments, the kernel's result array ends at `G h s v` (block by block, the blocks
    covering the array) and the reference's at its last stage, which is `G h s v` too; `s` and `v` are the same terms
    of the same arguments. -/
theorem algebraic : Cert.algebraic_KernelIdeal_ReferenceIdeal := by
  intro m ρ m' ρ' _ hagree
  refine ⟨fun c => Cert.AffineRelu.G (m ((c : Thread Cert.KernelIdeal.nD Cert.KernelIdeal.τ).loc Cert.KernelIdeal.main_arg0))
      (Cert.KernelIdeal.KerValue.scaleOf m c) (Cert.KernelIdeal.KerValue.shiftOf m c),
    Cert.KernelIdeal.KerValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  refine (Cert.ReferenceIdeal.Read.val_main_v18_eq (F := Ideal) _ _ _ _ _ _).trans ?_
  rw [Cert.ReferenceIdeal.RefValue.result_eq, scale_agree, shift_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
